-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S65536x1024 .f32) (main_arg1 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S65536x1024 : Shape := ⟨2, ![65536, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .bf16⟩
  | .hbm, ⟨3, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.RowsTimesBasis.lean ====
/-
  The function both programs compute. `x` is a table of 65536 rows of 1024 entries, `b` a 1024 × 1024 basis;
  entry (r, d) of the result is the dot product of row r of `x` with column d of `b`:

      (x · b)[r, d] = ∑ k < 1024, x[r, k] · b[k, d]

  on the extended reals. Nothing here needs the entries to be finite: the two programs are compared as the SAME
  sum in the SAME order of factors, so no law of the extended reals beyond reflexivity is used.
-/
import Idealize.ShloMosaic.PureOps.Ideal
import Idealize.ShloMosaic.Lib.ValueIdx

noncomputable section

namespace Cert.Embedding

open Idealize.ShloMosaic Idealize.ShloMosaic.ValueIdx

/-- Row r of `x` against column d of `b`, summed over the 1024 shared coordinates. -/
def rowsTimesBasis (x : FVec Ideal ⟨2, ![65536, 1024]⟩ .f32) (b : FVec Ideal ⟨2, ![1024, 1024]⟩ .f32) :
    FVec Ideal ⟨2, ![65536, 1024]⟩ .f32 :=
  fun i => ∑ k : Fin 1024, x (ix2 (i 0) k) * b (ix2 k (i 1))

/-- The entry at explicit coordinates. -/
theorem rowsTimesBasis_apply (x : FVec Ideal ⟨2, ![65536, 1024]⟩ .f32) (b : FVec Ideal ⟨2, ![1024, 1024]⟩ .f32)
    (r : Fin 65536) (d : Fin 1024) :
    rowsTimesBasis x b (ix2 r d) = ∑ k : Fin 1024, x (ix2 r k) * b (ix2 k d) := rfl

end Cert.Embedding

end
-- ==== Proof.ReferenceProduct.lean ====
/-
  The reference is one host `dot_general` contracting axis 1 of `x` with axis 0 of `b`. Read at an index (r, d)
  it is the sum over k of x[r, k] · b[k, d]: the function `rowsTimesBasis`. The only work is to see that the
  operand indices the dimension numbers produce, (r, k) on the left and (k, d) on the right, are the ones the
  specification names.
-/
import proofs.«415643_j27857157881981_3_alg».proof.Proof.Gen.ReferenceIdeal.Read
import proofs.«415643_j27857157881981_3_alg».proof.Proof.RowsTimesBasis

noncomputable section

namespace Cert.Embedding

open Idealize.ShloMosaic Idealize.ShloMosaic.ValueIdx Cert.ReferenceIdeal Cert.ReferenceIdeal.Read

/-- The left operand is read at row `i 0`, column `k`. -/
theorem left_index (i : S65536x1024.Idx) (k : Fin 1024) : lidx_main_v0 i k = ix2 (i 0) k :=
  funext fun a => by match a with | ⟨0, _⟩ => rfl | ⟨1, _⟩ => rfl

/-- The right operand is read at row `k`, column `i 1`. -/
theorem right_index (i : S65536x1024.Idx) (k : Fin 1024) : ridx_main_v0 i k = ix2 k (i 1) :=
  funext fun a => by match a with | ⟨0, _⟩ => rfl | ⟨1, _⟩ => rfl

/-- The host product of the two argument arrays is `rowsTimesBasis` of them. -/
theorem reference_product (x : FVec Ideal S65536x1024 .f32) (b : FVec Ideal S1024x1024 .f32) :
    val_main_v0 (F := Ideal) x b = rowsTimesBasis x b := by
  funext i
  rw [val_main_v0_apply]
  refine Finset.sum_congr rfl fun k _ => ?_
  rw [left_index, right_index]
  rfl

end Cert.Embedding

end
-- ==== Proof.BlockProduct.lean ====
/-
  What the kernel body stores at one grid point, read at an index. The body loads a block of 2048 rows of `x`
  and the whole basis, narrows both to a shorter float format (the identity on extended reals), and multiplies
  them into a zero accumulator, contracting the rows' 1024 coordinates against the basis' first axis. So entry
  (p, q) of the stored block is

      ∑ k < 1024, xblock[p, k] · basis[k, q].

  The contraction index of the product's dimension record has one axis of extent 1024; the sum is re-indexed
  over `Fin 1024` through that one coordinate, and the record's operand indices at (p, q) and k are (p, k) on the
  left and (k, q) on the right.
-/
import proofs.«415643_j27857157881981_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.Embedding

open Idealize.ShloMosaic Idealize.ShloMosaic.ValueIdx Cert.KernelIdeal Cert.KernelIdeal.Gen

/-- The left operand's row is the output's row. -/
theorem block_left_row (j : S2048x1024.Idx) (q : dot_S2048x1024_S1024x1024_S2048x1024_1_0_0_1_n_n.contr.Idx) :
    (dot_S2048x1024_S1024x1024_S2048x1024_1_0_0_1_n_n.lhsIdx j q 0).val = (j 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- The left operand's column is the contracted coordinate. -/
theorem block_left_col (j : S2048x1024.Idx) (q : dot_S2048x1024_S1024x1024_S2048x1024_1_0_0_1_n_n.contr.Idx) :
    (dot_S2048x1024_S1024x1024_S2048x1024_1_0_0_1_n_n.lhsIdx j q 1).val = (q ⟨0, by decide⟩).val :=
  dot_S2048x1024_S1024x1024_S2048x1024_1_0_0_1_n_n.lhsIdx_val_of_single rfl j q

/-- The right operand's row is the contracted coordinate. -/
theorem block_right_row (j : S2048x1024.Idx) (q : dot_S2048x1024_S1024x1024_S2048x1024_1_0_0_1_n_n.contr.Idx) :
    (dot_S2048x1024_S1024x1024_S2048x1024_1_0_0_1_n_n.rhsIdx j q 0).val = (q ⟨0, by decide⟩).val :=
  dot_S2048x1024_S1024x1024_S2048x1024_1_0_0_1_n_n.rhsIdx_val_of_single rfl j q

/-- The right operand's column is the output's column. -/
theorem block_right_col (j : S2048x1024.Idx) (q : dot_S2048x1024_S1024x1024_S2048x1024_1_0_0_1_n_n.contr.Idx) :
    (dot_S2048x1024_S1024x1024_S2048x1024_1_0_0_1_n_n.rhsIdx j q 1).val = (j 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- Entry (p, q) of the block the body stores: row p of the loaded rows against column q of the loaded basis. -/
theorem stored_block_apply (xb : FVec Ideal S2048x1024 .f32) (bb : FVec Ideal S1024x1024 .bf16) (p : Fin 2048) (q : Fin 1024) :
    k0_pay1 (F := Ideal) xb bb (ix2 p q) = ∑ k : Fin 1024, xb (ix2 p k) * bb (ix2 k q) := by
  unfold k0_pay1
  refine (Ideal.matmul_constant_zero_apply dot_S2048x1024_S1024x1024_S2048x1024_1_0_0_1_n_n none _ _ (ix2 p q)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q)
      ((contrEquiv1 dot_S2048x1024_S1024x1024_S2048x1024_1_0_0_1_n_n 1024 rfl rfl).symm k) = ix2 p k :=
    funext fun a => Fin.ext (by
      match a with
      | ⟨0, _⟩ => exact block_left_row _ _
      | ⟨1, _⟩ => exact (block_left_col _ _).trans hk)
  have er : dot_S2048x1024_S1024x1024_S2048x1024_1_0_0_1_n_n.rhsIdx (ix2 p q)
      ((contrEquiv1 dot_S2048x1024_S1024x1024_S2048x1024_1_0_0_1_n_n 1024 rfl rfl).symm k) = ix2 k q :=
    funext fun a => Fin.ext (by
      match a with
      | ⟨0, _⟩ => exact (block_right_row _ _).trans hk
      | ⟨1, _⟩ => exact block_right_col _ _)
  rw [el, er, shapeCast_self]
  rfl

end Cert.Embedding

end
-- ==== Proof.KernelProduct.lean ====
/-
  From blocks to the array. The kernel walks 32 grid points; at point t it reads rows 2048·t … 2048·t + 2047 of
  `x` and the whole basis, and writes back the same rows of the result. The basis reaches the kernel through one
  host operation that narrows its float format, which is the identity on extended reals, so the kernel sees the
  argument basis itself.

  Row r of the result lies in exactly the block of point r / 2048, and inside that block at row r mod 2048; the
  block's entry there is row r of `x` against a column of the basis. The 32 blocks tile the 65536 rows, so the
  array after the run is `rowsTimesBasis` of the two arguments everywhere.
-/
import proofs.«415643_j27857157881981_3_alg».proof.Proof.Gen.KernelIdeal.Value
import proofs.«415643_j27857157881981_3_alg».proof.Proof.BlockProduct
import proofs.«415643_j27857157881981_3_alg».proof.Proof.RowsTimesBasis
import Idealize.ShloMosaic.Lib.StableHlo.Run

noncomputable section

namespace Cert.Embedding

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- Where each window's block sits at point t: the rows of `x` and of the result move together, one block of rows
    per point; the basis is one block, never moving; no window is split along the columns. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The basis as the kernel finds it is the argument basis: narrowing a float format changes no extended real. -/
theorem basis_at_entry (c : Dev nD) :
    @Eq (S1024x1024.Idx → EReal) (V m c main_v0) (m ((c : Thread nD τ).loc main_arg1)) := by
  dsimp only [Gen.V, Gen.hostOps0]; after_results; rfl

/-- WHAT POINT t WRITES BACK is block t of the product of the two argument arrays. -/
theorem written_back (c : Dev nD) (t : Fin cfg0.N) :
    (dats m 0 c).flushed 2 t = ((cfg0.win 2).blk t).view.read (Elt Ideal)
      (rowsTimesBasis (m ((c : Thread nD τ).loc main_arg0)) (m ((c : Thread nD τ).loc main_arg1))) := by
  rw [Value.flushed2]
  unfold out0_2
  rw [View.canon_unit_zero origin]
  simp only [View.ld_unit_zero (S := S2048x1024) origin, View.ld_unit_zero (S := S1024x1024) origin]
  obtain ⟨e0, e1, e2, e3, e4, e5⟩ := block_positions t
  funext j
  obtain ⟨p, q, rfl⟩ : ∃ (p : Fin 2048) (q : Fin 1024), j = ix2 p q := ⟨j 0, j 1, eq_ix2 j⟩
  show k0_pay1 (F := Ideal) (iblk m c 0 t) (iblk m c 1 t) (ix2 p q)
    = rowsTimesBasis (m ((c : Thread nD τ).loc main_arg0)) (m ((c : Thread nD τ).loc main_arg1)) (((cfg0.win 2).blk t).view.emb (ix2 p q))
  refine (stored_block_apply (iblk m c 0 t) (iblk m c 1 t) p q).trans ?_
  unfold rowsTimesBasis
  refine Finset.sum_congr rfl fun k _ => ?_
  -- the row block of `x` at (p, k) is `x` at the result's row, column k
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 1024 + 1 * k.val = k.val; omega
  -- the basis block at (k, q) is the basis at row k, the result's column
  have hb : ((cfg0.win 1).blk t).view.emb (ix2 k q) = ix2 k ((((cfg0.win 2).blk t).view.emb (ix2 p q)) 1) := by
    funext a; apply Fin.ext
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega
  refine congrArg₂ (· * ·) ?_ ?_
  · show V m c main_arg0 (((cfg0.win 0).blk t).view.emb (ix2 p k)) = _
    rw [hx, V_main_arg0]
    rfl
  · show (V m c main_v0 : S1024x1024.Idx → EReal) (((cfg0.win 1).blk t).view.emb (ix2 k q)) = _
    rw [hb]
    exact congrFun (basis_at_entry m c) _

/-- An index of the result is in point t's block iff each coordinate is in the block's range on its axis. -/
theorem mem_block (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- Every index of the result is written: row r by the point r / 2048. -/
theorem every_index_written (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : cfg0.N = 32 := N_0
  obtain ⟨t, ht⟩ : ∃ t : Fin cfg0.N, t.val = (i 0).val / 2048 := ⟨⟨(i 0).val / 2048, by omega⟩, rfl⟩
  obtain ⟨-, -, -, -, e4, e5⟩ := block_positions t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- THE ARRAY after the run is the product of the two argument arrays. -/
theorem result_array (c : Dev nD) :
    (dats m 0 c).arrAt 2 cfg0.N
      = rowsTimesBasis (m ((c : Thread nD τ).loc main_arg0)) (m ((c : Thread nD τ).loc main_arg1)) :=
  (dats m 0 c).arrAt_eq_of_cover 2 _ (fun t _ => written_back m c t) every_index_written

/-- The kernel's run: it ends with the result array at the product and the arguments unchanged. -/
theorem kernel_run : θ_run defs (onTc (τ := τ) (main (F := Ideal))) ⟨m, fun _ => 0, ρ⟩ fun r => ∀ c : Dev nD,
      r.2.mem ((c : Thread nD τ).loc main_v1)
        = rowsTimesBasis (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩) (Value.run_blocks m ρ)

end Cert.Embedding

end
-- ==== Proof.lean ====
/-
  An embedding lookup written as a matrix product. `x` is a [65536, 1024] table of rows and `ortho_basis` a
  [1024, 1024] basis; both programs return

      out[r, d] = ∑ k < 1024, x[r, k] · ortho_basis[k, d].

  The kernel narrows the float format of both operands before multiplying and accumulates into a wider format;
  on extended reals a change of float format is the identity, so the narrowing changes nothing. It works through
  the rows 2048 at a time, each block of rows against the whole basis, contracting all 1024 coordinates in one
  product into a zero accumulator: the tiling is along the rows only, so each entry of the result is one sum, in
  the reference's own order, and the two sides agree term by term. No law of the extended reals that fails at the
  infinities is used, hence the precondition (finite inputs) is never opened.

  The modules: `RowsTimesBasis` states the function; `ReferenceProduct` reads the reference's host product as it;
  `BlockProduct` reads one stored block of the kernel at an index; `KernelProduct` carries the blocks to the whole
  array (the 32 blocks of 2048 rows tile the 65536 rows) and restates the kernel's run with it. The kernel's
  idealization rewrote no operation, so there is nothing to preserve beyond the text itself.
-/
import proofs.«415643_j27857157881981_3_alg».proof.Defs
import proofs.«415643_j27857157881981_3_alg».proof.Proof.Gen.Kernel
import proofs.«415643_j27857157881981_3_alg».proof.Proof.Gen.Kernel.Frame
import proofs.«415643_j27857157881981_3_alg».proof.Proof.Gen.KernelIdeal
import proofs.«415643_j27857157881981_3_alg».proof.Proof.Gen.KernelIdeal.Frame
import proofs.«415643_j27857157881981_3_alg».proof.Proof.Gen.KernelIdeal.Value
import proofs.«415643_j27857157881981_3_alg».proof.Proof.Gen.ReferenceIdeal
import proofs.«415643_j27857157881981_3_alg».proof.Proof.Gen.ReferenceIdeal.Run
import proofs.«415643_j27857157881981_3_alg».proof.Proof.Gen.ReferenceIdeal.Read
import proofs.«415643_j27857157881981_3_alg».proof.Proof.Gen.Pre_finite_inputs
import proofs.«415643_j27857157881981_3_alg».proof.Proof.ReferenceProduct
import proofs.«415643_j27857157881981_3_alg».proof.Proof.KernelProduct
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on extended reals. -/
theorem frame_kernel_ideal : Cert.frame_KernelIdeal := fun m ρ _ => Cert.KernelIdeal.Gen.frame m ρ

/-- The reference is one host operation; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the product of its arguments (the blocks carried
    to the array) and the reference's at the host product of its own, which is the same function. -/
theorem algebraic : Cert.algebraic_KernelIdeal_ReferenceIdeal := by
  intro m ρ m' ρ' _ hagree
  refine ⟨_, Cert.Embedding.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.Embedding.reference_product _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
